-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S751x2048 : S_.BroadcastsInDim S751x2048 (![] : Fin 0 → Fin S751x2048.rank)
  reducesTo_S751x2048_S_d0_1 : S751x2048.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2048 .f32) (main_arg1 : IVec S16384 32) (main_arg2 : FVec F S751x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S751x2048 .f32 := Host.absf main_arg2
  let main_cst_0 : FVec F S_ .f32 := constant S_ .f32 0x7F800000#32
  let main_v5 : FVec F S751x2048 .f32 := broadcastInDim S751x2048 ![] bcast_S_S751x2048 main_cst_0
  let main_v6 : IVec S751x2048 1 := cmpf .olt main_v4 main_v5
  let main_c_1 : IVec S_ 1 := constantI S_ 1 1#1
  let main_v7 : IVec S_ 1 := (fun x v => Host.reduce IntOp.andi x v reducesTo_S751x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 751#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x2048 : Shape := ⟨2, ![16384, 2048]⟩
abbrev S16384 : Shape := ⟨1, ![16384]⟩
abbrev S751x2048 : Shape := ⟨2, ![751, 2048]⟩
abbrev S16384x1 : Shape := ⟨2, ![16384, 1]⟩
abbrev S_ : Shape := ⟨0, ![]⟩
abbrev S768x2048 : Shape := ⟨2, ![768, 2048]⟩
abbrev S2048x768 : Shape := ⟨2, ![2048, 768]⟩
abbrev S768 : Shape := ⟨1, ![768]⟩
abbrev S768x1 : Shape := ⟨2, ![768, 1]⟩
abbrev S1x768 : Shape := ⟨2, ![1, 768]⟩
abbrev S32x1x128 : Shape := ⟨3, ![32, 1, 128]⟩
abbrev S512x2048 : Shape := ⟨2, ![512, 2048]⟩
abbrev S512x1 : Shape := ⟨2, ![512, 1]⟩
abbrev S1x1x128 : Shape := ⟨3, ![1, 1, 128]⟩
abbrev S512x768 : Shape := ⟨2, ![512, 768]⟩
abbrev S512 : Shape := ⟨1, ![512]⟩
abbrev S1 : Shape := ⟨1, ![1]⟩
abbrev S1x1 : Shape := ⟨2, ![1, 1]⟩
abbrev S1x1x1 : Shape := ⟨3, ![1, 1, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S751x2048, .f32⟩
  | .hbm, ⟨3, _⟩ => ⟨S16384x1, .i32⟩
  | .hbm, ⟨4, _⟩ => ⟨S_, .i32⟩
  | .hbm, ⟨5, _⟩ => ⟨S_, .f32⟩
  | .hbm, ⟨6, _⟩ => ⟨S768x2048, .f32⟩
  | .hbm, ⟨7, _⟩ => ⟨S2048x768, .f32⟩
  | .hbm, ⟨8, _⟩ => ⟨S2048x768, .bf16⟩
  | .hbm, ⟨9, _⟩ => ⟨S768x2048, .f32⟩
  | .hbm, ⟨10, _⟩ => ⟨S_, .f32⟩
  | .hbm, ⟨11, _⟩ => ⟨S768, .f32⟩
  | .hbm, ⟨12, _⟩ => ⟨S768x1, .f32⟩
  | .hbm, ⟨13, _⟩ => ⟨S1x768, .f32⟩
  | .hbm, ⟨14, _⟩ => ⟨S32x1x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S2048x768, .bf16⟩
  | .local _ .vmem, ⟨5, _⟩ => ⟨S1x768, .f32⟩
  | .local _ .vmem, ⟨6, _⟩ => ⟨S1x1x128, .f32⟩
  | .local _ .vmem, ⟨7, _⟩ => ⟨S1x1x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  pads_S751x2048_S768x2048_0170_000 : S751x2048.Pads (![0, 0] : Fin 2 → Nat) ![17, 0] ![0, 0] S768x2048
  h_S_ : 0 < S_.numel
  transposes_S768x2048_S2048x768_1_0 : S768x2048.Transposes [1, 0] S2048x768
  bitsLt_bf16_f32 : FTy.bits .bf16 < FTy.bits .f32
  reducesTo_S768x2048_S768_d1 : S768x2048.ReducesTo [1] S768
  bcast_S768_S768x1_0 : S768.BroadcastsInDim S768x1 (![0] : Fin 1 → Fin S768x1.rank)
  transposes_S768x1_S1x768_1_0 : S768x1.Transposes [1, 0] S1x768
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x768_d1_w32 : S512x768.Iotas .tc 32 [1]
  broadcasts_S512x1_S512x768 : S512x1.Broadcasts S512x768
  natLt_1_32 : 1 < 32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S512x2048_S512 : S512x2048.Reduces [1] S512
  shapeCasts_S512_S512x1 : S512.ShapeCasts S512x1
  reduces_S512x768_S512 : S512x768.Reduces [1] S512
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  reducesTo_S32x1x128_S_d0_1_2 : S32x1x128.ReducesTo [0, 1, 2] S_
  dot_S512x2048_S2048x768_S512x768_1_0_0_1_n_n_wf : DotDims.WF S512x2048 S2048x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S2048x768.size a
  hwx0_2 : ∀ i : grid0.Coords, EltTy.bits .bf16 = 32 ∨ (Rect.block (s := S2048x768) S2048x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S751x2048 : Shape := ⟨2, ![751, 2048]⟩
abbrev S_ : Shape := ⟨0, ![]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S751x2048, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x2048_S16384_d1 : S16384x2048.ReducesTo [1] S16384
  h_S_ : 0 < S_.numel
  reducesTo_S16384_S_d0 : S16384.ReducesTo [0] S_
  gather_S751x2048_S16384x1_S16384x2048_1_0_n_n_0_1_12048_wf : GatherDims.WF S751x2048 S16384x1 S16384x2048 [1] [0] [] [0] [] 1 ![1, 2048]

variable [Facts₀]

def gather_S751x2048_S16384x1_S16384x2048_1_0_n_n_0_1_12048 : GatherDims S751x2048 S16384x1 S16384x2048 where
  offsetDims := [1]
  collapsedSliceDims := [0]
  operandBatchingDims := []
  startIndicesBatchingDims := []
  startIndexMap := [0]
  indexVectorDim := 1
  sliceSizes := ![1, 2048]
  wf := gather_S751x2048_S16384x1_S16384x2048_1_0_n_n_0_1_12048_wf

class Facts : Prop extends Facts₀ where

variable [Facts]
-- ==== Proof.Consts.lean ====
/-
  The float words of the two programs read as extended reals: the two clip bounds denote real numbers (neither
  infinity), and the kernel's lane scale denotes exactly 1/128, a power of two.
-/
import Idealize.ShloMosaic.PureOps.Ideal

noncomputable section

namespace Cert.CenterDist

open Idealize.ShloMosaic

/-- The lower clip bound (the f32 nearest 1e-12) is neither infinity. -/
theorem lo_finite : Ideal.ofBits .f32 0x2B8CBCCC#32 ≠ ⊤ ∧ Ideal.ofBits .f32 0x2B8CBCCC#32 ≠ ⊥ := by
  constructor <;> simp [Ideal.ofBits, Ideal.ieee, -EReal.coe_mul]

/-- The upper clip bound (the f32 nearest 1e12) is neither infinity. -/
theorem hi_finite : Ideal.ofBits .f32 0x5368D4A5#32 ≠ ⊤ ∧ Ideal.ofBits .f32 0x5368D4A5#32 ≠ ⊥ := by
  constructor <;> simp [Ideal.ofBits, Ideal.ieee, -EReal.coe_mul]

/-- So each is a real number. -/
theorem lo_real : ∃ l : ℝ, Ideal.ofBits .f32 0x2B8CBCCC#32 = (l : EReal) :=
  ⟨_, (EReal.coe_toReal lo_finite.1 lo_finite.2).symm⟩
theorem hi_real : ∃ h : ℝ, Ideal.ofBits .f32 0x5368D4A5#32 = (h : EReal) :=
  ⟨_, (EReal.coe_toReal hi_finite.1 hi_finite.2).symm⟩

/-- The kernel's lane scale 0.0078125 is 2⁻⁷ = 1/128 exactly. -/
theorem inv128 : Ideal.ofBits .f32 0x3C000000#32 = ((1 / 128 : ℝ) : EReal) := by
  simp [Ideal.ofBits, Ideal.ieee, -EReal.coe_mul]; norm_num

end Cert.CenterDist

end
-- ==== Proof.Spec.lean ====
/-
  The mathematics the two programs share, on the extended reals.

  For a feature row `x` and a center row `c` the clipped expanded squared distance is
  `clip(‖x‖² + ‖c‖² − 2·⟨x, c⟩)`; the loss is the sum of it over the rows, divided by the row count.
  One program reads the center row by a one-hot mask over the class axis, the other by an index:
  a sum against a one-hot mask is the entry at the hot position (`sum_onehot_mul`, `sum_mul_onehot`).
  One program adds the rows up block by block, scales each block's sum by 1/128 and spreads it over
  128 lanes before the total is taken: 128 copies of p/128 add up to p for a REAL p, and a clipped value
  is always real, whatever was clipped (`clip_real`, `lanes`, `total`). The rest is re-indexing of
  finite sums (`sum_idx1`, `sum_idx3`, `sum_rows`).
-/
import Idealize.ShloMosaic.PureOps.Ideal
import Idealize.ShloMosaic.Lib.ValueIdx
import Idealize.ShloMosaic.Lib.ValueIdxRank1
import proofs.«427452_j20263655702582_2_alg».proof.Proof.Consts

noncomputable section

namespace Cert.CenterDist

open Idealize.ShloMosaic Idealize.ShloMosaic.ValueIdx

/-- The clip bounds, the factor two and the lane scale, as the words both programs spell. -/
abbrev loW : EReal := Ideal.ofBits .f32 0x2B8CBCCC#32
abbrev hiW : EReal := Ideal.ofBits .f32 0x5368D4A5#32
abbrev twoW : EReal := Ideal.ofBits .f32 0x40000000#32
abbrev invW : EReal := Ideal.ofBits .f32 0x3C000000#32

/-- The clipped expanded squared distance between a feature row and a center row. -/
def clipDist (x c : Fin 2048 → EReal) : EReal :=
  min hiW (max loW ((∑ k, x k * x k) + (∑ k, c k * c k) - twoW * ∑ k, x k * c k))

/-- Clipping between two real bounds gives a real number, whatever is clipped (the infinities included). -/
theorem clip_real (d : EReal) : ∃ v : ℝ, min hiW (max loW d) = (v : EReal) := by
  have hne_top : min hiW (max loW d) ≠ ⊤ := ne_top_of_le_ne_top hi_finite.1 (min_le_left _ _)
  have hne_bot : min hiW (max loW d) ≠ ⊥ := by
    intro h
    rcases min_eq_bot.mp h with h | h
    · exact hi_finite.2 h
    · exact lo_finite.2 (max_eq_bot.mp h).1
  exact ⟨_, (EReal.coe_toReal hne_top hne_bot).symm⟩

theorem clipDist_real (x c : Fin 2048 → EReal) : ∃ v : ℝ, clipDist x c = (v : EReal) := clip_real _

/-- The table row a label word selects: the word read signed and clamped into the 751 rows. -/
def labIdx (w : BitVec 32) : Fin 751 := ⟨min w.toInt.toNat 750, by omega⟩

/-- A label word in the label range is its class index as an unsigned word, and the class index is the word's value. -/
theorem label_word (w : BitVec 32) (h0 : 0 ≤ w.toInt) (h1 : w.toInt < 751) :
    w = BitVec.ofNat 32 (labIdx w).val := by
  have hcond := BitVec.toInt_eq_toNat_cond w
  have hlt := w.isLt
  have hnat : w.toInt = (w.toNat : ℤ) := by
    rw [hcond] at h0 ⊢
    split_ifs at h0 ⊢ with hc
    · rfl
    · exfalso; omega
  have hv : (labIdx w).val = w.toNat := by
    show min w.toInt.toNat 750 = w.toNat
    rw [hnat] at h1 ⊢
    rw [Int.toNat_natCast]
    omega
  apply BitVec.eq_of_toNat_eq
  rw [BitVec.toNat_ofNat, hv, Nat.mod_eq_of_lt hlt]

/-- THE LOSS: the clipped distances of the 16384 rows to their labels' centers, added onto the zero word and divided
    by the row count's word. -/
def loss (x : (⟨2, ![16384, 2048]⟩ : Shape).Idx → EReal) (lab : (⟨1, ![16384]⟩ : Shape).Idx → BitVec 32)
    (C : (⟨2, ![751, 2048]⟩ : Shape).Idx → EReal) : (⟨0, ![]⟩ : Shape).Idx → EReal :=
  fun _ => Ideal.div (Ideal.ofBits .f32 0x00000000#32
      + ∑ r : Fin 16384, clipDist (fun k => x (ix2 r k)) (fun k => C (ix2 (labIdx (lab (ix1 r))) k)))
    (Ideal.ofBits .f32 0x46800000#32)

/-- A sum against a one-hot mask is the entry at the hot position (zero times anything is zero on the extended reals). -/
theorem sum_onehot_mul {n : ℕ} (ℓ : Fin n) (a : Fin n → EReal) :
    ∑ j, (if j = ℓ then (1 : EReal) else 0) * a j = a ℓ := by
  rw [Finset.sum_eq_single ℓ (fun j _ hj => by rw [if_neg hj, zero_mul]) (fun h => absurd (Finset.mem_univ _) h),
    if_pos rfl, one_mul]

theorem sum_mul_onehot {n : ℕ} (ℓ : Fin n) (a : Fin n → EReal) :
    ∑ j, a j * (if j = ℓ then (1 : EReal) else 0) = a ℓ := by
  rw [Finset.sum_eq_single ℓ (fun j _ hj => by rw [if_neg hj, mul_zero]) (fun h => absurd (Finset.mem_univ _) h),
    if_pos rfl, mul_one]

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  exact Finset.induction_on s (by simp) (fun a s ha ih => by
    rw [Finset.sum_insert ha, Finset.sum_insert ha, ih, EReal.coe_add])

/-- So a finite sum of real-valued terms is real. -/
theorem sum_real {ι : Type} [Fintype ι] (q : ι → EReal) (h : ∀ i, ∃ v : ℝ, q i = (v : EReal)) :
    ∃ v : ℝ, ∑ i, q i = (v : EReal) := by
  choose f hf using h
  exact ⟨∑ i, f i, by rw [← coe_sum]; exact Finset.sum_congr rfl fun i _ => hf i⟩

/-- 128 lanes each holding p/128 add up to p, for a real p. -/
theorem lanes (p : ℝ) : ∑ _l : Fin 128, ((p : EReal) * invW) = (p : EReal) := by
  rw [show invW = ((1 / 128 : ℝ) : EReal) from inv128]
  simp only [← EReal.coe_mul]
  rw [coe_sum]
  refine congrArg _ ?_
  rw [Finset.sum_const, Finset.card_univ, Fintype.card_fin, nsmul_eq_mul]
  push_cast; ring

/-- The block sums, scaled by 1/128 and spread over 128 lanes, add up to the sum over all rows. -/
theorem total (q : Fin 32 → Fin 512 → EReal) (hq : ∀ b i, ∃ v : ℝ, q b i = (v : EReal)) :
    ∑ b : Fin 32, ∑ _l : Fin 128, (∑ i : Fin 512, q b i) * invW = ∑ b : Fin 32, ∑ i : Fin 512, q b i := by
  refine Finset.sum_congr rfl fun b _ => ?_
  obtain ⟨p, hp⟩ := sum_real (q b) (hq b)
  rw [hp]
  exact lanes p

/-! ## Re-indexing -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row r = 512·b + i: the 16384 rows are 32 blocks of 512. -/
def rowOf (b : Fin 32) (i : Fin 512) : Fin 16384 := ⟨512 * b.val + i.val, by omega⟩

def rowEquiv : Fin 32 × Fin 512 ≃ Fin 16384 where
  toFun p := rowOf p.1 p.2
  invFun r := (⟨r.val / 512, by omega⟩, ⟨r.val % 512, Nat.mod_lt _ (by norm_num)⟩)
  left_inv p := by
    obtain ⟨b, i⟩ := p
    refine Prod.ext (Fin.ext ?_) (Fin.ext ?_)
    · show (512 * b.val + i.val) / 512 = b.val
      omega
    · show (512 * b.val + i.val) % 512 = i.val
      omega
  right_inv r := Fin.ext (by
    show 512 * (r.val / 512) + r.val % 512 = r.val
    omega)

/-- The sum over all rows, block by block. -/
theorem sum_rows {M : Type} [AddCommMonoid M] (g : Fin 16384 → M) :
    ∑ r, g r = ∑ b : Fin 32, ∑ i : Fin 512, g (rowOf b i) := by
  rw [← Equiv.sum_comp rowEquiv g, Fintype.sum_prod_type]
  rfl

end Cert.CenterDist

end
-- ==== Proof.RefValue.lean ====
/-
  The reference, row by row.

  Its gather reads, for row r, the center row at the start index of row r read signed and clamped into the
  table; for a label that is not negative the wrap-around the reference applies first changes nothing, so the
  row read is the clamped label's (`gather_row`, `ref_center`). Each row's value is then the clipped
  expanded squared distance to that center row (`ref_row`), and the result is their sum over the rows,
  divided by the row count (`ref_value`).
-/
import proofs.«427452_j20263655702582_2_alg».proof.Proof.Gen.ReferenceIdeal.Read
import proofs.«427452_j20263655702582_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.CenterDist
open Idealize.ShloMosaic Idealize.ShloMosaic.ValueIdx

/-- The gather of whole rows: entry (r, k) of the result is entry k of the table row that row r's start index,
    read signed and clamped, names. -/
theorem gather_row {α : Type} (x : S751x2048.Idx → α) (idx : IVec S16384x1 32) (r : Fin 16384) (k : Fin 2048) :
    Host.gather gather_S751x2048_S16384x1_S16384x2048_1_0_n_n_0_1_12048 x idx (ix2 r k)
      = x (ix2 (labIdx (idx (ix2 r (0 : Fin 1)))) k) := by
  unfold Host.gather
  congr 1
  funext a
  refine Fin.ext ?_
  match a with
  | ⟨0, _⟩ =>
    show gather_S751x2048_S16384x1_S16384x2048_1_0_n_n_0_1_12048.start (ix2 r k) idx 0
        + gather_S751x2048_S16384x1_S16384x2048_1_0_n_n_0_1_12048.batchCoord (ix2 r k) 0
        + gather_S751x2048_S16384x1_S16384x2048_1_0_n_n_0_1_12048.offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S751x2048_S16384x1_S16384x2048_1_0_n_n_0_1_12048.startIndexMap from
      List.mem_singleton.mpr rfl)]
    have hsi : gather_S751x2048_S16384x1_S16384x2048_1_0_n_n_0_1_12048.siIdx (ix2 r k)
        ⟨List.idxOf (0 : Fin 2) gather_S751x2048_S16384x1_S16384x2048_1_0_n_n_0_1_12048.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S751x2048_S16384x1_S16384x2048_1_0_n_n_0_1_12048.start (ix2 r k) idx 1
        + gather_S751x2048_S16384x1_S16384x2048_1_0_n_n_0_1_12048.batchCoord (ix2 r k) 1
        + gather_S751x2048_S16384x1_S16384x2048_1_0_n_n_0_1_12048.offCoord (ix2 r k) 1 = k.val
    rw [GatherDims.batchCoord_eq_zero _ _ _ List.not_mem_nil]
    unfold GatherDims.start
    rw [dif_neg (show (1 : Fin 2) ∉ gather_S751x2048_S16384x1_S16384x2048_1_0_n_n_0_1_12048.startIndexMap from by decide)]
    unfold GatherDims.offCoord
    rw [dif_pos (show (1 : Fin 2) ∈ gather_S751x2048_S16384x1_S16384x2048_1_0_n_n_0_1_12048.sKept from by decide)]
    simp only [Nat.zero_add]
    rfl

/-- The word of a label that is not negative does not compare below zero, so the reference's wrap-around
    leaves it: row r's start index is its label. -/
theorem ref_index (x1 : (⟨S16384, .i32⟩ : BufTy).Contents (Elt Ideal)) (r : Fin 16384) (hr : 0 ≤ (x1 (ix1 r)).toInt) :
    val_main_v5 (F := Ideal) x1 (ix2 r (0 : Fin 1)) = x1 (ix1 r) := by
  have e : idx_main_v5 (ix2 r (0 : Fin 1)) = ix1 r := funext fun a => by match a with | ⟨0, _⟩ => rfl
  rw [val_main_v5_apply, e, val_main_v4_apply, val_main_v1_apply, val_main_v0_apply, val_main_c_apply]
  have h00 : (0#32 : BitVec 32).toInt = 0 := by decide
  have h0 : IntOp.cmpi .slt (x1 (ix1 r)) 0#32 = 0#1 := eq_zero_of_ne_one (fun h => by
    have := IntOp.cmpi_slt.mp h
    rw [h00] at this
    omega)
  rw [h0, select_zero]

/-- Row r of the reference: the clipped expanded squared distance of feature row r to its label's center row. -/
theorem ref_row (x0 : (⟨S16384x2048, .f32⟩ : BufTy).Contents (Elt Ideal)) (x1 : (⟨S16384, .i32⟩ : BufTy).Contents (Elt Ideal))
    (x2 : (⟨S751x2048, .f32⟩ : BufTy).Contents (Elt Ideal)) (r : Fin 16384) (hr : 0 ≤ (x1 (ix1 r)).toInt) :
    val_main_v17 (F := Ideal) x0 x1 x2 (ix1 r)
      = clipDist (fun k => x0 (ix2 r k)) (fun k => x2 (ix2 (labIdx (x1 (ix1 r))) k)) := by
  have e8 : ∀ k, idx_main_v8 (ix1 r) k = ix2 r k := fun k => funext fun a => by
    match a with | ⟨0, _⟩ => rfl | ⟨1, _⟩ => rfl
  have e10 : ∀ k, idx_main_v10 (ix1 r) k = ix2 r k := fun k => funext fun a => by
    match a with | ⟨0, _⟩ => rfl | ⟨1, _⟩ => rfl
  have e13 : ∀ k, idx_main_v13 (ix1 r) k = ix2 r k := fun k => funext fun a => by
    match a with | ⟨0, _⟩ => rfl | ⟨1, _⟩ => rfl
  have hg : ∀ k, val_main_v6 (F := Ideal) x1 x2 (ix2 r k) = x2 (ix2 (labIdx (x1 (ix1 r))) k) := fun k => by
    unfold val_main_v6
    rw [gather_row, ref_index x1 r hr]
  rw [val_main_v17_apply, val_main_call0_v4_apply, val_main_call0_v3_apply, val_main_cst_5_apply,
    val_main_call0_v2_apply, val_main_call0_v1_apply, val_main_call0_v0_apply, val_main_cst_4_apply,
    val_main_v16_apply, val_main_v11_apply, val_main_v8_apply, val_main_v10_apply, val_main_v15_apply,
    val_main_v14_apply, val_main_cst_3_apply, val_main_v13_apply, val_main_cst_apply, val_main_cst_1_apply,
    val_main_cst_2_apply]
  simp only [e8, e10, e13, val_main_v7_apply, val_main_v9_apply, val_main_v12_apply, hg,
    Ideal.ofBits_def, Ideal.addf_def, Ideal.subf_def, Ideal.mulf_def, Ideal.maximumf_def, Ideal.minimumf_def,
    Ideal.ofBits_zero_f32, zero_add]
  rfl

/-- THE REFERENCE'S VALUE: the loss, for labels that are not negative. -/
theorem ref_value (x0 : (⟨S16384x2048, .f32⟩ : BufTy).Contents (Elt Ideal)) (x1 : (⟨S16384, .i32⟩ : BufTy).Contents (Elt Ideal))
    (x2 : (⟨S751x2048, .f32⟩ : BufTy).Contents (Elt Ideal)) (hlab : ∀ r : Fin 16384, 0 ≤ (x1 (ix1 r)).toInt) :
    val_main_v19 (F := Ideal) x0 x1 x2 = loss x0 x1 x2 := by
  funext i
  rw [val_main_v19_apply, val_main_v18_apply, val_main_cst_7_apply, val_main_cst_6_apply, sum_idx1,
    Finset.sum_congr rfl fun r _ => ref_row x0 x1 x2 r (hlab r)]
  rfl

end Cert.ReferenceIdeal.RefValue

end
-- ==== Proof.KernelArrays.lean ====
/-
  The arrays the kernel's region is launched on, as functions of the three arguments.

  Before the region the program reshapes the labels to a column, pads the center table with 17 zero rows to 768,
  transposes it (the change of float format is the identity on the extended reals), and sums the padded table's
  squares along each row. At a column that is a real class (below 751) the padding is never met: the transposed
  table holds the class's center row, and the norms hold the sum of that row's squares.
-/
import proofs.«427452_j20263655702582_2_alg».proof.Proof.Gen.KernelIdeal.Frame
import proofs.«427452_j20263655702582_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.Lib.Tactic
import Idealize.ShloMosaic.PureOps.Ideal.Laws

noncomputable section

namespace Cert.KernelIdeal.Hand

open Cert.KernelIdeal Cert.KernelIdeal.Gen Cert.CenterDist
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The three arguments on core c, at their literal types: features, label words, centers. -/
abbrev xArr (c : Dev nD) : S16384x2048.Idx → EReal := m ((c : Thread nD τ).loc main_arg0)
abbrev labArr (c : Dev nD) : S16384.Idx → BitVec 32 := m ((c : Thread nD τ).loc main_arg1)
abbrev cenArr (c : Dev nD) : S751x2048.Idx → EReal := m ((c : Thread nD τ).loc main_arg2)

/-- The center table padded below with 17 rows of the converted zero word. -/
abbrev padded (C : S751x2048.Idx → EReal) : S768x2048.Idx → EReal :=
  pad S768x2048 ![0, 0] ![17, 0] ![0, 0] C (sitofp .f32 (constantI S_ 32 0#32) : FVec Ideal S_ .f32)
    pads_S751x2048_S768x2048_0170_000 h_S_

/-- Window 1's array: the labels as a column. -/
theorem V_labels (c : Dev nD) :
    (V m c main_v0 : S16384x1.Idx → BitVec 32) = shapeCast S16384x1 (labArr m c) shapeCasts_S16384_S16384x1 := by
  dsimp only [V, V0]
  simp only [hostOps0, hostOps0_1, hostOps0_2, List.flatten_cons, List.flatten_nil, List.append_nil, List.cons_append,
    List.nil_append]
  after_results
  rfl

/-- Window 2's array: the padded table, transposed. -/
theorem V_table (c : Dev nD) :
    (V m c main_v3 : S2048x768.Idx → EReal)
      = truncf .bf16 (transpose S2048x768 [1, 0] (padded (cenArr m c)) transposes_S768x2048_S2048x768_1_0 : FVec Ideal S2048x768 .f32)
          bitsLt_bf16_f32 := by
  dsimp only [V, V0]
  simp only [hostOps0, hostOps0_1, hostOps0_2, List.flatten_cons, List.flatten_nil, List.append_nil, List.cons_append,
    List.nil_append]
  after_results
  rfl

/-- Window 3's array: the padded table's squared row norms, as a row. -/
theorem V_norms (c : Dev nD) :
    (V m c main_v7 : S1x768.Idx → EReal)
      = transpose S1x768 [1, 0] (broadcastInDim S768x1 ![0] bcast_S768_S768x1_0
          (Host.reduceAdd (mulf (padded (cenArr m c)) (padded (cenArr m c)) : FVec Ideal S768x2048 .f32)
            (constant S_ .f32 0x00000000#32) reducesTo_S768x2048_S768_d1 h_S_)) transposes_S768x1_S1x768_1_0 := by
  dsimp only [V, V0]
  simp only [hostOps0, hostOps0_1, hostOps0_2, List.flatten_cons, List.flatten_nil, List.append_nil, List.cons_append,
    List.nil_append]
  after_results
  rfl

/-- Row r of the labels' column is label r. -/
theorem V_labels_apply (c : Dev nD) (r : Fin 16384) :
    (V m c main_v0 : S16384x1.Idx → BitVec 32) (ix2 r (0 : Fin 1)) = labArr m c (ix1 r) := by
  rw [V_labels]
  exact shapeCast_apply _ _ _ _ (by
    rw [Shape.rowMajor_val_one, Shape.rowMajor_val_two]
    show r.val = r.val * 1 + 0
    omega)

/-- An entry of the padded table at a real class row is the center's. -/
theorem padded_apply (C : S751x2048.Idx → EReal) (j : Fin 768) (hj : j.val < 751) (k : Fin 2048) :
    padded C (ix2 j k) = C (ix2 ⟨j.val, hj⟩ k) :=
  pad_apply_of_inside _ _ _ C _ _ _ (ix2 j k) (ix2 ⟨j.val, hj⟩ k) (fun a => by
    match a with
    | ⟨0, _⟩ => show j.val = 0 + j.val * (0 + 1); omega
    | ⟨1, _⟩ => show k.val = 0 + k.val * (0 + 1); omega)

/-- The transposed table at (k, j), for a real class j, is entry k of center j. -/
theorem V_table_apply (c : Dev nD) (k : Fin 2048) (j : Fin 768) (hj : j.val < 751) :
    (V m c main_v3 : S2048x768.Idx → EReal) (ix2 k j) = cenArr m c (ix2 ⟨j.val, hj⟩ k) := by
  rw [V_table, truncf_apply, transpose_ix2_apply, padded_apply _ j hj k]

/-- The norms' row at a real class j is the sum of the squares of center j's entries. -/
theorem V_norms_apply (c : Dev nD) (j : Fin 768) (hj : j.val < 751) :
    (V m c main_v7 : S1x768.Idx → EReal) (ix2 (0 : Fin 1) j)
      = ∑ k : Fin 2048, cenArr m c (ix2 ⟨j.val, hj⟩ k) * cenArr m c (ix2 ⟨j.val, hj⟩ k) := by
  rw [V_norms, transpose_ix2_apply,
    broadcastInDim_apply _ bcast_S768_S768x1_0 _ (ix2 j (0 : Fin 1)) (ix1 j) (fun a => by
      match a with
      | ⟨0, _⟩ => show j.val = if (768 : ℕ) = 1 then 0 else j.val; rw [if_neg (by decide)])]
  simp only [Host.reduceAdd, Ideal.hostReduceAdd_def]
  rw [Ideal.hostReduceAdd_single reducesTo_S768x2048_S768_d1 (by decide)]
  show Ideal.ofBits .f32 0x00000000#32 + _ = _
  rw [Ideal.ofBits_zero_f32, zero_add]
  refine Finset.sum_congr rfl fun (k : Fin 2048) _ => ?_
  have e : (Shape.Reduces.lift (by decide : S768x2048.Reduces [1] S768) (ix1 j) k) = ix2 j k :=
    funext fun a => Fin.ext (by match a with | ⟨0, _⟩ => rfl | ⟨1, _⟩ => rfl)
  refine (congrArg (mulf (padded (cenArr m c)) (padded (cenArr m c)) : FVec Ideal S768x2048 .f32) e).trans ?_
  rw [mulf_apply, padded_apply _ j hj k]

end Cert.KernelIdeal.Hand

end
-- ==== Proof.KernelPayload.lean ====
/-
  The kernel body's one store, read at an index.

  A block holds 512 feature rows, their 512 label words, the whole transposed padded center table and the
  padded table's squared row norms. Lane l of the stored value is, for every l, the sum over the block's rows of the
  clipped value  ‖x_i‖² + n(ℓ_i) − 2·(x_i · T(·, ℓ_i)),  times 1/128, where ℓ_i is row i's label: the mask
  `iota = label` is one at column ℓ_i and zero elsewhere, so the two masked sums over the 768 columns are the
  entries at column ℓ_i.
-/
import proofs.«427452_j20263655702582_2_alg».proof.Proof.Gen.KernelIdeal.Skeleton
import proofs.«427452_j20263655702582_2_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.Hand

open Cert.KernelIdeal Cert.KernelIdeal.Gen Cert.CenterDist
open Idealize.ShloMosaic Idealize.ShloMosaic.ValueIdx Idealize.SL.Sem

/-! ## Layout operations of the body, read at an index -/

section Layout
variable {α : Type}

/-- A vector of 512 entries kept as a column reads its entry. -/
theorem col_of_vec (u : S512.Idx → α) (h : S512.ShapeCasts S512x1) (i : Fin 512) :
    shapeCast S512x1 u h (ix2 i (0 : Fin 1)) = u (ix1 i) :=
  shapeCast_apply u h _ _ (by
    rw [Shape.rowMajor_val_one, Shape.rowMajor_val_two]
    show i.val = i.val * 1 + 0
    omega)

/-- A one-entry vector viewed [1, 1]. -/
theorem unit2_of_unit1 (u : S1.Idx → α) (h : S1.ShapeCasts S1x1) (a b : Fin 1) :
    shapeCast S1x1 u h (ix2 a b) = u (ix1 (0 : Fin 1)) :=
  shapeCast_apply u h _ _ (by
    rw [Shape.rowMajor_val_one, Shape.rowMajor_val_two]
    show (0 : ℕ) = a.val * 1 + b.val
    have := a.isLt; have := b.isLt; omega)

/-- A [1, 1] array viewed [1, 1, 1]. -/
theorem unit3_of_unit2 (u : S1x1.Idx → α) (h : S1x1.ShapeCasts S1x1x1) (a b c : Fin 1) :
    shapeCast S1x1x1 u h (ix3 a b c) = u (ix2 (0 : Fin 1) (0 : Fin 1)) :=
  shapeCast_apply u h _ _ (by
    rw [Shape.rowMajor_val_two, Shape.rowMajor_val_three]
    show (0 : ℕ) * 1 + 0 = (a.val * 1 + b.val) * 1 + c.val
    have := a.isLt; have := b.isLt; have := c.isLt; omega)

/-- A column broadcast along the 768 columns reads its row's entry. -/
theorem bcast_col (u : S512x1.Idx → α) (h : S512x1.Broadcasts S512x768) (i : Fin 512) (j : Fin 768) :
    broadcastTo S512x768 u h (ix2 i j) = u (ix2 i (0 : Fin 1)) := by
  refine broadcastTo_apply u h (ix2 i j) (ix2 i (0 : Fin 1)) fun ax => ?_
  match ax with
  | ⟨0, _⟩ => show i.val = if (512 : ℕ) = 1 then 0 else i.val; rw [if_neg (by decide)]
  | ⟨1, _⟩ => show (0 : ℕ) = if (1 : ℕ) = 1 then 0 else j.val; rw [if_pos rfl]

/-- The one entry broadcast over the 128 lanes. -/
theorem bcast_lanes (u : S1x1x1.Idx → α) (h : S1x1x1.Broadcasts S1x1x128) (a b : Fin 1) (l : Fin 128) :
    broadcastTo S1x1x128 u h (ix3 a b l) = u (ix3 (0 : Fin 1) (0 : Fin 1) (0 : Fin 1)) := by
  refine broadcastTo_apply u h (ix3 a b l) (ix3 (0 : Fin 1) (0 : Fin 1) (0 : Fin 1)) fun ax => ?_
  match ax with
  | ⟨0, _⟩ => show (0 : ℕ) = if (1 : ℕ) = 1 then 0 else a.val; rw [if_pos rfl]
  | ⟨1, _⟩ => show (0 : ℕ) = if (1 : ℕ) = 1 then 0 else b.val; rw [if_pos rfl]
  | ⟨2, _⟩ => show (0 : ℕ) = if (1 : ℕ) = 1 then 0 else l.val; rw [if_pos rfl]

end Layout

/-! ## The body's sums, as sums over coordinates -/

/-- A row sum over the 2048 features. -/
theorem rowsum_2048 (src : FVec Ideal S512x2048 .f32) (h : S512x2048.Reduces [1] S512) (hφ : FKind.Formats .f32)
    (hacc : (0x00000000#32 : BitVec 32) = 0x00000000#32) (i : Fin 512) :
    multiReduction .add [1] S512 src 0x00000000#32 h hφ hacc (ix1 i) = ∑ k : Fin 2048, src (ix2 i k) := by
  refine (Ideal.multiReduction_add_single src 0x00000000#32 h hφ hacc (ix1 i)).trans ?_
  refine Finset.sum_congr rfl fun k _ => ?_
  exact congrArg src (funext fun a => Fin.ext (by match a with | ⟨0, _⟩ => rfl | ⟨1, _⟩ => rfl))

/-- A row sum over the 768 columns. -/
theorem rowsum_768 (src : FVec Ideal S512x768 .f32) (h : S512x768.Reduces [1] S512) (hφ : FKind.Formats .f32)
    (hacc : (0x00000000#32 : BitVec 32) = 0x00000000#32) (i : Fin 512) :
    multiReduction .add [1] S512 src 0x00000000#32 h hφ hacc (ix1 i) = ∑ j : Fin 768, src (ix2 i j) := by
  refine (Ideal.multiReduction_add_single src 0x00000000#32 h hφ hacc (ix1 i)).trans ?_
  refine Finset.sum_congr rfl fun k _ => ?_
  exact congrArg src (funext fun a => Fin.ext (by match a with | ⟨0, _⟩ => rfl | ⟨1, _⟩ => rfl))

/-- The sum down the column of 512 rows. -/
theorem colsum_512 (src : FVec Ideal S512x1 .f32) (h : S512x1.Reduces [0] S1) (hφ : FKind.Formats .f32)
    (hacc : (0x00000000#32 : BitVec 32) = 0x00000000#32) :
    multiReduction .add [0] S1 src 0x00000000#32 h hφ hacc (ix1 (0 : Fin 1)) = ∑ i : Fin 512, src (ix2 i (0 : Fin 1)) := by
  refine (Ideal.multiReduction_add_single src 0x00000000#32 h hφ hacc (ix1 (0 : Fin 1))).trans ?_
  refine Finset.sum_congr rfl fun k _ => ?_
  exact congrArg src (funext fun a => Fin.ext (by match a with | ⟨0, _⟩ => rfl | ⟨1, _⟩ => rfl))

/-! ## The product with the table, at an index -/

theorem lhs_dot_0 (j : S512x768.Idx) (k : dot_S512x2048_S2048x768_S512x768_1_0_0_1_n_n.contr.Idx) :
    (dot_S512x2048_S2048x768_S512x768_1_0_0_1_n_n.lhsIdx j k 0).val = (j 0).val := by
  unfold DotDims.lhsIdx
  rw [dif_neg (show ¬(0 : Fin S512x2048.rank) ∈ dot_S512x2048_S2048x768_S512x768_1_0_0_1_n_n.lhsBatch by decide),
    dif_pos (show (0 : Fin S512x2048.rank) ∈ dot_S512x2048_S2048x768_S512x768_1_0_0_1_n_n.lhsNonContracting by decide)]
  rfl

theorem lhs_dot_1 (j : S512x768.Idx) (k : dot_S512x2048_S2048x768_S512x768_1_0_0_1_n_n.contr.Idx) :
    (dot_S512x2048_S2048x768_S512x768_1_0_0_1_n_n.lhsIdx j k 1).val = (k ⟨0, by decide⟩).val :=
  DotDims.lhsIdx_val_of_single _ rfl j k

theorem rhs_dot_0 (j : S512x768.Idx) (k : dot_S512x2048_S2048x768_S512x768_1_0_0_1_n_n.contr.Idx) :
    (dot_S512x2048_S2048x768_S512x768_1_0_0_1_n_n.rhsIdx j k 0).val = (k ⟨0, by decide⟩).val :=
  DotDims.rhsIdx_val_of_single _ rfl j k

theorem rhs_dot_1 (j : S512x768.Idx) (k : dot_S512x2048_S2048x768_S512x768_1_0_0_1_n_n.contr.Idx) :
    (dot_S512x2048_S2048x768_S512x768_1_0_0_1_n_n.rhsIdx j k 1).val = (j 1).val := by
  unfold DotDims.rhsIdx
  rw [dif_neg (show ¬(1 : Fin S2048x768.rank) ∈ dot_S512x2048_S2048x768_S512x768_1_0_0_1_n_n.rhsBatch by decide),
    dif_pos (show (1 : Fin S2048x768.rank) ∈ dot_S512x2048_S2048x768_S512x768_1_0_0_1_n_n.rhsNonContracting by decide)]
  rfl

/-- Entry (i, j) of the block's product with the table: the sum over the 2048 features. -/
theorem matmul_at (a : FVec Ideal S512x2048 .bf16) (b : FVec Ideal S2048x768 .bf16) (i : Fin 512) (j : Fin 768) :
    matmul dot_S512x2048_S2048x768_S512x768_1_0_0_1_n_n none a b (constant S512x768 .f32 0x00000000#32) (ix2 i j)
      = ∑ k : Fin 2048, a (ix2 i k) * b (ix2 k j) := by
  simp only [matmul]
  rw [Ideal.matmul_constant_zero_apply,
    ← Equiv.sum_comp (contrEquiv1 dot_S512x2048_S2048x768_S512x768_1_0_0_1_n_n 2048 rfl rfl).symm]
  refine Finset.sum_congr rfl fun k _ => ?_
  have hk := contrEquiv1_symm_val dot_S512x2048_S2048x768_S512x768_1_0_0_1_n_n 2048 rfl rfl k
  congr 1
  · refine congrArg a (funext fun ax => Fin.ext ?_)
    match ax with
    | ⟨0, _⟩ => exact lhs_dot_0 _ _
    | ⟨1, _⟩ => exact (lhs_dot_1 _ _).trans hk
  · refine congrArg b (funext fun ax => Fin.ext ?_)
    match ax with
    | ⟨0, _⟩ => exact (rhs_dot_0 _ _).trans hk
    | ⟨1, _⟩ => exact rhs_dot_1 _ _

/-! ## The mask -/

/-- A compare's one-bit word, widened and converted: one if set, zero if not. -/
theorem sitofp_bit (b : BitVec 1) :
    FloatOps.sitofp (F := Ideal) .f32 (b.setWidth 32) = if b = 1#1 then (1 : EReal) else 0 := by
  have e1 : ((1#1 : BitVec 1).setWidth 32).toInt = 1 := by decide
  have e0 : ((0#1 : BitVec 1).setWidth 32).toInt = 0 := by decide
  by_cases hb : b = 1#1
  · subst hb
    rw [if_pos rfl]
    show ((((1#1 : BitVec 1).setWidth 32).toInt : ℝ) : EReal) = 1
    rw [e1]; simp
  · have hz := eq_zero_of_ne_one hb
    subst hz
    rw [if_neg (by decide)]
    show ((((0#1 : BitVec 1).setWidth 32).toInt : ℝ) : EReal) = 0
    rw [e0]; simp

/-- The mask `iota = label`, as a float: one at the label's column, zero elsewhere. -/
theorem onehot_apply (lab : IVec S512x1 32) (hi : S512x768.Iotas .tc 32 [1]) (hb : S512x1.Broadcasts S512x768)
    (hlt : 1 < 32) (i : Fin 512) (j ℓ : Fin 768) (hℓ : lab (ix2 i (0 : Fin 1)) = BitVec.ofNat 32 ℓ.val) :
    (sitofp .f32 (extui 32 (cmpi .eq (iota .tc S512x768 32 [1] hi) (broadcastTo S512x768 lab hb)) hlt)
        : FVec Ideal S512x768 .f32) (ix2 i j) = if j = ℓ then (1 : EReal) else 0 := by
  show FloatOps.sitofp (F := Ideal) .f32
      ((IntOp.cmpi .eq (iota .tc S512x768 32 [1] hi (ix2 i j)) (broadcastTo S512x768 lab hb (ix2 i j))).setWidth 32) = _
  rw [sitofp_bit, iota_single_apply, bcast_col, hℓ]
  show (if IntOp.cmpi .eq (BitVec.ofNat 32 j.val) (BitVec.ofNat 32 ℓ.val) = 1#1 then (1 : EReal) else 0) = _
  have hiff : IntOp.cmpi .eq (BitVec.ofNat 32 j.val) (BitVec.ofNat 32 ℓ.val) = 1#1 ↔ j = ℓ := by
    rw [IntOp.cmpi_eq]
    constructor
    · intro hh
      have := congrArg BitVec.toNat hh
      simp only [BitVec.toNat_ofNat] at this
      have := j.isLt; have := ℓ.isLt
      exact Fin.ext (by omega)
    · intro hh; rw [hh]
  by_cases h : j = ℓ
  · rw [if_pos (hiff.mpr h), if_pos h]
  · rw [if_neg (fun hh => h (hiff.mp hh)), if_neg h]

/-! ## The stored value -/

/-- THE STORED VALUE AT A LANE: the block's sum, over its 512 rows, of the clipped value of the row's squared norm
    plus its label's table norm minus twice its product with its label's table column — times the lane scale.
    `ℓ i` is row i's label as a column of the padded table. -/
theorem pay_apply (v0 : Vec Ideal S512x2048 .f32) (v1 : Vec Ideal S512x1 .i32) (v9 : Vec Ideal S2048x768 .bf16)
    (v18 : Vec Ideal S1x768 .f32) (ℓ : Fin 512 → Fin 768)
    (hℓ : ∀ i, v1 (ix2 i (0 : Fin 1)) = BitVec.ofNat 32 (ℓ i).val) (a b : Fin 1) (l : Fin 128) :
    k0_pay1 (F := Ideal) v0 v1 v9 v18 (ix3 a b l)
      = (∑ i : Fin 512, min hiW (max loW ((∑ k : Fin 2048, v0 (ix2 i k) * v0 (ix2 i k)) + v18 (ix2 (0 : Fin 1) (ℓ i))
            - twoW * ∑ k : Fin 2048, v0 (ix2 i k) * v9 (ix2 k (ℓ i))))) * invW := by
  unfold k0_pay1
  dsimp only
  rw [bcast_lanes, shapeCast_self, unit3_of_unit2, mulf_apply, unit2_of_unit1, colsum_512]
  refine congrArg₂ (· * ·) (Finset.sum_congr rfl fun i _ => ?_) rfl
  simp only [minimumf_apply, maximumf_apply, subf_apply, addf_apply, mulf_apply, broadcast_apply, col_of_vec,
    shapeCast_self]
  rw [rowsum_2048, rowsum_768, rowsum_768]
  simp only [mulf_apply, truncf_apply, broadcastTo_1b_ab_apply, matmul_at,
    onehot_apply _ _ _ _ i _ (ℓ i) (hℓ i), sum_onehot_mul, sum_mul_onehot]
  rfl

/-- The same at any index of the stored block: the value does not depend on the lane. -/
theorem pay_at (v0 : Vec Ideal S512x2048 .f32) (v1 : Vec Ideal S512x1 .i32) (v9 : Vec Ideal S2048x768 .bf16)
    (v18 : Vec Ideal S1x768 .f32) (ℓ : Fin 512 → Fin 768)
    (hℓ : ∀ i, v1 (ix2 i (0 : Fin 1)) = BitVec.ofNat 32 (ℓ i).val) (y : S1x1x128.Idx) :
    k0_pay1 (F := Ideal) v0 v1 v9 v18 y
      = (∑ i : Fin 512, min hiW (max loW ((∑ k : Fin 2048, v0 (ix2 i k) * v0 (ix2 i k)) + v18 (ix2 (0 : Fin 1) (ℓ i))
            - twoW * ∑ k : Fin 2048, v0 (ix2 i k) * v9 (ix2 k (ℓ i))))) * invW := by
  rw [eq_ix3 y]
  exact pay_apply v0 v1 v9 v18 ℓ hℓ _ _ _

end Cert.KernelIdeal.Hand

end
-- ==== Proof.KernelValue.lean ====
/-
  The kernel's result, read off its frame run.

  Grid point t fetches feature rows 512t … 512t+511 with their labels, and the whole transposed table and norms; it
  writes block t of the [32, 1, 128] output: at every lane the block's sum of clipped distances times 1/128
  (`flushed_eq`). The 32 blocks tile the output (`cover`), so after the run the output array is that function of the
  arguments everywhere (`final`). The lines after the region add up all 32·128 entries onto the zero word and
  divide by the row count's word: by the lane law that is the loss (`tail_value`, `run`).
-/
import proofs.«427452_j20263655702582_2_alg».proof.Proof.KernelArrays
import proofs.«427452_j20263655702582_2_alg».proof.Proof.KernelPayload

noncomputable section

namespace Cert.KernelIdeal.Hand

open Cert.KernelIdeal Cert.KernelIdeal.Gen Cert.CenterDist
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point as a block number. -/
def blkOf (t : Fin cfg0.N) : Fin 32 := ⟨t.val, by have : cfg0.N = 32 := N_0; omega⟩

/-- The printed index maps over the grid: the features', the labels' and the output's blocks move with the point
    along the first axis, the table and the norms stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The four input blocks at a point, at their literal types. -/
abbrev xblk (c : Dev nD) (t : Fin cfg0.N) : Vec Ideal S512x2048 .f32 := iblk m c 0 t
abbrev lblk (c : Dev nD) (t : Fin cfg0.N) : Vec Ideal S512x1 .i32 := iblk m c 1 t
abbrev tblk (c : Dev nD) (t : Fin cfg0.N) : Vec Ideal S2048x768 .bf16 := iblk m c 2 t
abbrev nblk (c : Dev nD) (t : Fin cfg0.N) : Vec Ideal S1x768 .f32 := iblk m c 3 t

/-- Row i of the features' block at point t is feature row 512t + i. -/
theorem xblk_apply (c : Dev nD) (t : Fin cfg0.N) (i : Fin 512) (k : Fin 2048) :
    xblk m c t (ix2 i k) = xArr m c (ix2 (rowOf (blkOf t) i) k) := by
  obtain ⟨e0, e1, -⟩ := idx_facts t
  show iblk m c 0 t (ix2 i k) = _
  unfold iblk
  rw [View.read_apply]
  show V m c main_arg0 _ = _
  rw [V_main_arg0]
  show xArr m c _ = xArr m c _
  congr 1
  funext a
  apply Fin.ext
  match a with
  | ⟨0, _⟩ => show win0_0.index t (0 : Fin 2) * 512 + 1 * i.val = 512 * t.val + i.val; rw [e0]; omega
  | ⟨1, _⟩ => show win0_0.index t (1 : Fin 2) * 2048 + 1 * k.val = k.val; rw [e1]; omega

/-- Row i of the labels' block at point t is label 512t + i. -/
theorem lblk_apply (c : Dev nD) (t : Fin cfg0.N) (i : Fin 512) :
    lblk m c t (ix2 i (0 : Fin 1)) = labArr m c (ix1 (rowOf (blkOf t) i)) := by
  obtain ⟨-, -, e0, e1, -⟩ := idx_facts t
  show iblk m c 1 t (ix2 i (0 : Fin 1)) = _
  unfold iblk
  rw [View.read_apply]
  show (V m c main_v0 : S16384x1.Idx → BitVec 32) _ = _
  refine (congrArg (V m c main_v0 : S16384x1.Idx → BitVec 32) ?_).trans (V_labels_apply m c (rowOf (blkOf t) i))
  funext a
  apply Fin.ext
  match a with
  | ⟨0, _⟩ => show win0_1.index t (0 : Fin 2) * 512 + 1 * i.val = 512 * t.val + i.val; rw [e0]; omega
  | ⟨1, _⟩ => show win0_1.index t (1 : Fin 2) * 1 + 1 * 0 = 0; rw [e1]

/-- The table's block is the whole transposed table: at a real class column, the class's center row. -/
theorem tblk_apply (c : Dev nD) (t : Fin cfg0.N) (k : Fin 2048) (j : Fin 768) (hj : j.val < 751) :
    tblk m c t (ix2 k j) = cenArr m c (ix2 ⟨j.val, hj⟩ k) := by
  obtain ⟨-, -, -, -, e0, e1, -⟩ := idx_facts t
  show iblk m c 2 t (ix2 k j) = _
  unfold iblk
  rw [View.read_apply]
  show (V m c main_v3 : S2048x768.Idx → EReal) _ = _
  refine (congrArg (V m c main_v3 : S2048x768.Idx → EReal) ?_).trans (V_table_apply m c k j hj)
  funext a
  apply Fin.ext
  match a with
  | ⟨0, _⟩ => show win0_2.index t (0 : Fin 2) * 2048 + 1 * k.val = k.val; rw [e0]; omega
  | ⟨1, _⟩ => show win0_2.index t (1 : Fin 2) * 768 + 1 * j.val = j.val; rw [e1]; omega

/-- The norms' block is the whole row of norms: at a real class column, the sum of the center row's squares. -/
theorem nblk_apply (c : Dev nD) (t : Fin cfg0.N) (j : Fin 768) (hj : j.val < 751) :
    nblk m c t (ix2 (0 : Fin 1) j) = ∑ k : Fin 2048, cenArr m c (ix2 ⟨j.val, hj⟩ k) * cenArr m c (ix2 ⟨j.val, hj⟩ k) := by
  obtain ⟨-, -, -, -, -, -, e0, e1, -⟩ := idx_facts t
  show iblk m c 3 t (ix2 (0 : Fin 1) j) = _
  unfold iblk
  rw [View.read_apply]
  show (V m c main_v7 : S1x768.Idx → EReal) _ = _
  refine (congrArg (V m c main_v7 : S1x768.Idx → EReal) ?_).trans (V_norms_apply m c j hj)
  funext a
  apply Fin.ext
  match a with
  | ⟨0, _⟩ => show win0_3.index t (0 : Fin 2) * 1 + 1 * 0 = 0; rw [e0]
  | ⟨1, _⟩ => show win0_3.index t (1 : Fin 2) * 768 + 1 * j.val = j.val; rw [e1]; omega

/-- A label word's class, as a column of the padded table. -/
def colOf (w : BitVec 32) : Fin 768 := ⟨(labIdx w).val, by have := (labIdx w).isLt; omega⟩

/-- THE OUTPUT ARRAY: block b holds, at every lane, the sum over the block's 512 rows of the clipped distance of the
    row to its label's center, times 1/128. -/
def outArr (c : Dev nD) : S32x1x128.Idx → EReal := fun j =>
  (∑ i : Fin 512, clipDist (fun k => xArr m c (ix2 (rowOf (j 0) i) k))
      (fun k => cenArr m c (ix2 (labIdx (labArr m c (ix1 (rowOf (j 0) i)))) k))) * invW

/-- The labels on core c are class indices. -/
abbrev LabelsOk (c : Dev nD) : Prop :=
  ∀ r : Fin 16384, 0 ≤ (labArr m c (ix1 r)).toInt ∧ (labArr m c (ix1 r)).toInt < 751

/-- WHAT POINT t WRITES BACK is block t of the output array. -/
theorem flushed_eq (c : Dev nD) (hlab : LabelsOk m c) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero hz3]
  simp only [View.ld_unit_zero (S := S512x2048) hz2, View.ld_unit_zero (S := S512x1) hz2,
    View.ld_unit_zero (S := S2048x768) hz2, View.ld_unit_zero (S := S1x768) hz2]
  obtain ⟨-, -, -, -, -, -, -, -, e0, e1, e2⟩ := idx_facts t
  funext y
  show k0_pay1 (F := Ideal) (xblk m c t) (lblk m c t) (tblk m c t) (nblk m c t) y
    = outArr m c (((cfg0.win 4).blk t).view.emb y)
  refine (pay_at (xblk m c t) (lblk m c t) (tblk m c t) (nblk m c t)
    (fun i => colOf (labArr m c (ix1 (rowOf (blkOf t) i))))
    (fun i => (lblk_apply m c t i).trans (label_word _ (hlab _).1 (hlab _).2)) y).trans ?_
  have hy0 : (y 0).val < 1 := (y 0).isLt
  have he : (((cfg0.win 4).blk t).view.emb y : S32x1x128.Idx) 0 = blkOf t := Fin.ext (by
    show win0_4.index t (0 : Fin 3) * 1 + 1 * (y 0).val = t.val
    rw [e0]; omega)
  unfold outArr
  rw [he]
  refine congrArg (· * invW) (Finset.sum_congr rfl fun i _ => ?_)
  have hj : (colOf (labArr m c (ix1 (rowOf (blkOf t) i)))).val < 751 := (labIdx _).isLt
  simp only [xblk_apply, nblk_apply m c t _ hj, tblk_apply m c t _ _ hj]
  rfl

/-- An index of the output is in point t's block iff each coordinate is in the block's range on its axis. -/
theorem mem_blk (t : Fin cfg0.N) (i : S32x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v8).slice (win0_4.rect t)).set ↔ _
  rw [View.set_slice_whole, Rect.mem_set_unit]
  exact Iff.rfl

/-- Every index of the output is in the block of the point its first coordinate names, which is written back. -/
theorem cover (i : S32x1x128.Idx) :
    ∃ t : Fin cfg0.N, (cfg0.win 4).flush t = true ∧ i ∈ ((cfg0.win 4).blk t).view.set := by
  have hN : cfg0.N = 32 := N_0
  have h0 : (i 0).val < 32 := (i 0).isLt
  have h1 : (i 1).val < 1 := (i 1).isLt
  have h2 : (i 2).val < 128 := (i 2).isLt
  obtain ⟨t, ht⟩ : ∃ t : Fin cfg0.N, t.val = (i 0).val := ⟨⟨(i 0).val, by omega⟩, rfl⟩
  refine ⟨t, flush0_4 t, ?_⟩
  rw [mem_blk]
  obtain ⟨-, -, -, -, -, -, -, -, e0, e1, e2⟩ := idx_facts t
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 128 ≤ (i 2).val ∧ (i 2).val < win0_4.index t (2 : Fin 3) * 128 + 128
    rw [e2]; omega

/-- THE OUTPUT ARRAY AFTER THE RUN. -/
theorem final (c : Dev nD) (hlab : LabelsOk m c) : (dats m 0 c).arrAt 4 cfg0.N = outArr m c :=
  (dats m 0 c).arrAt_eq_of_cover 4 (outArr m c) (fun t _ => flushed_eq m c hlab t) cover

/-- All 32·128 entries of the output add up to the sum of the clipped distances over all 16384 rows: each block's
    128 lanes give back the block's sum, a real number. -/
theorem out_sum (c : Dev nD) :
    ∑ j : S32x1x128.Idx, outArr m c j
      = ∑ r : Fin 16384, clipDist (fun k => xArr m c (ix2 r k))
          (fun k => cenArr m c (ix2 (labIdx (labArr m c (ix1 r))) k)) := by
  rw [sum_idx3, sum_rows,
    ← total (fun b i => clipDist (fun k => xArr m c (ix2 (rowOf b i) k))
      (fun k => cenArr m c (ix2 (labIdx (labArr m c (ix1 (rowOf b i)))) k))) (fun b i => clipDist_real _ _)]
  refine Finset.sum_congr rfl fun b _ => ?_
  rw [Fin.sum_univ_one]
  rfl

/-- THE LINES AFTER THE REGION leave the loss in the result buffer. -/
theorem tail_value (c : Dev nD) (hlab : LabelsOk m c) :
    (Pipeline.afterTail₀ cfgs (dats m) 0 (V0 m) [hostOps1] c main_v10 : S_.Idx → EReal)
      = loss (xArr m c) (labArr m c) (cenArr m c) := by
  unfold Pipeline.afterTail₀
  show StableHlo.after hostOps1 _ (Proc.devRef .tc main_v10) = _
  after_results
  have hw : (Pipeline.withArrays (cfgs 0).spec c (V0 m c) (fun w => (dats m 0 c).arrAt w (cfgs 0).N)
      (Proc.tc.devRef main_v8) : S32x1x128.Idx → EReal) = outArr m c :=
    (Pipeline.withArrays_arr spec0 launch0.win.arr_inj c _ _ 4).trans (final m c hlab)
  show Host.divf (F := Ideal) (Host.reduceAdd (F := Ideal) (Pipeline.withArrays (cfgs 0).spec c (V0 m c)
      (fun w => (dats m 0 c).arrAt w (cfgs 0).N) (Proc.tc.devRef main_v8) : S32x1x128.Idx → EReal)
      (constant (F := Ideal) S_ .f32 0x00000000#32) reducesTo_S32x1x128_S_d0_1_2 h_S_)
      (constant (F := Ideal) S_ .f32 0x46800000#32) = _
  rw [hw]
  funext i0
  show FloatOps.hostDivf (F := Ideal) (Host.reduceAdd (F := Ideal) (outArr m c) (constant (F := Ideal) S_ .f32 0x00000000#32)
      reducesTo_S32x1x128_S_d0_1_2 h_S_ i0) (Ideal.ofBits .f32 0x46800000#32) = _
  simp only [Host.reduceAdd, Ideal.hostReduceAdd_def]
  rw [Ideal.hostReduceAdd_total reducesTo_S32x1x128_S_d0_1_2 (fun b => b.elim0) (outArr m c) _ i0, out_sum]
  rfl

/-- THE RUN: every weakly fair execution ends with the loss in the result buffer and the arguments as launched,
    when the labels are class indices. -/
theorem run (hlab : ∀ c, LabelsOk m c) :
    θ_run defs (onTc (τ := τ) (main (F := Ideal))) ⟨m, fun _ => 0, ρ⟩ fun r => ∀ c : Dev nD,
      r.2.mem ((c.tc : Thread nD τ).loc main_v10) = loss (xArr m c) (labArr m c) (cenArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_value m c (hlab c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.PreDecode.lean ====
/-
  What the precondition says of the labels: every label word, read signed, lies in [0, 751).

  The printed predicate is a conjunction of three `all`s; its last conjunct is the `all` over the 16384 rows of
  `label ≥ 0 and label < 751`, both compares signed. The float conjuncts are not opened.
-/
import proofs.«427452_j20263655702582_2_alg».proof.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

variable {F : FTy → Type} [FloatOps F] [Facts]

instance : Subsingleton S_.Idx := ⟨fun _ _ => funext fun d => d.elim0⟩

/-- Under the precondition row r's label word is a class index: not negative and below 751, read signed. -/
theorem label_range (a0 : FVec F S16384x2048 .f32) (a1 : IVec S16384 32) (a2 : FVec F S751x2048 .f32)
    (h : fn (F := F) a0 a1 a2 = fun _ => 1#1) (r : Fin 16384) :
    0 ≤ (a1 (ix1 r)).toInt ∧ (a1 (ix1 r)).toInt < 751 := by
  have h0 := congrFun h ix0
  dsimp only [fn] at h0
  have h14 := (IntOp.andi_eq_one.mp h0).2
  have h13 := Host.reduce_andi_all _ _ _ _ _ h14 (ix1 r)
  obtain ⟨hge, hlt⟩ := IntOp.andi_eq_one.mp h13
  have hge' := IntOp.cmpi_sge.mp hge
  have hlt' := IntOp.cmpi_slt.mp hlt
  have e0 : (0#32 : BitVec 32).toInt = 0 := by decide
  have e751 : (751#32 : BitVec 32).toInt = 751 := by decide
  exact ⟨by rw [← e0]; exact hge', by rw [← e751]; exact hlt'⟩

end Cert.Pre_finite_inputs.Decode

end
-- ==== Proof.lean ====
/-
  A center loss: for 16384 feature rows x_r of 2048 entries, integer labels y_r and 751 center rows c_y,
  the mean over r of  clip(‖x_r‖² + ‖c_{y_r}‖² − 2·⟨x_r, c_{y_r}⟩)  between two fixed bounds.

  The reference gathers each label's center row and forms the three sums directly. The kernel never gathers: per
  block of 512 rows it multiplies the block by the whole (transposed, zero-padded to 768 classes) table, and picks
  the label's column out of that product, and out of a precomputed row of squared center norms, by summing against
  the mask `column = label`; it then adds the 512 clipped values, scales by 1/128, and writes the result to all 128
  lanes of its output block; the 32·128 entries are added up and divided by 16384 outside the kernel.

  On the extended reals the two agree whenever every label is a class index, 0 ≤ y_r < 751 (the precondition's
  last conjunct): a sum against a one-hot mask is the entry at the hot position; below class 751 the padded table
  is the table; 128 copies of p/128 add up to p because a clipped value, hence a block's sum of them, is a real
  number whatever was clipped. No finiteness of the float inputs is used.
  (Outside the label range the two programs differ: a negative label wraps around in the reference and selects a
  center, while the kernel's mask selects nothing.)

  Proof/Spec.lean has the mathematics, Proof/RefValue.lean the reference row by row, Proof/KernelPayload.lean the
  kernel body's stored value, Proof/KernelArrays.lean the arrays the region is launched on, Proof/KernelValue.lean the
  kernel's run, Proof/PreDecode.lean what the precondition says of the labels.
-/
import proofs.«427452_j20263655702582_2_alg».proof.Defs
import proofs.«427452_j20263655702582_2_alg».proof.Proof.Gen.Kernel
import proofs.«427452_j20263655702582_2_alg».proof.Proof.Gen.Kernel.Skeleton
import proofs.«427452_j20263655702582_2_alg».proof.Proof.Gen.Kernel.Launch
import proofs.«427452_j20263655702582_2_alg».proof.Proof.Gen.Kernel.Points
import proofs.«427452_j20263655702582_2_alg».proof.Proof.Gen.Kernel.Frame
import proofs.«427452_j20263655702582_2_alg».proof.Proof.Gen.KernelIdeal
import proofs.«427452_j20263655702582_2_alg».proof.Proof.Gen.KernelIdeal.Skeleton
import proofs.«427452_j20263655702582_2_alg».proof.Proof.Gen.KernelIdeal.Launch
import proofs.«427452_j20263655702582_2_alg».proof.Proof.Gen.KernelIdeal.Points
import proofs.«427452_j20263655702582_2_alg».proof.Proof.Gen.KernelIdeal.Frame
import proofs.«427452_j20263655702582_2_alg».proof.Proof.Gen.ReferenceIdeal
import proofs.«427452_j20263655702582_2_alg».proof.Proof.Gen.Pre_finite_inputs
import proofs.«427452_j20263655702582_2_alg».proof.Proof.Gen.ReferenceIdeal.Run
import proofs.«427452_j20263655702582_2_alg».proof.Proof.Gen.ReferenceIdeal.Read
import proofs.«427452_j20263655702582_2_alg».proof.Proof.RefValue
import proofs.«427452_j20263655702582_2_alg».proof.Proof.KernelValue
import proofs.«427452_j20263655702582_2_alg».proof.Proof.PreDecode
import Idealize.ShloMosaic.Adequacy
import Idealize.ShloMosaic.Init

noncomputable section

namespace Cert.Proof

open Idealize.ShloMosaic Idealize.SL.Sem

/-- The word-level kernel runs and leaves its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of their (agreeing) arguments: the kernel by its run, the reference by its
    run read row by row; the labels are class indices by the precondition. -/
theorem algebraic : Cert.algebraic_KernelIdeal_ReferenceIdeal := by
  intro m ρ m' ρ' hpre hagree
  have hlab : ∀ c, Cert.KernelIdeal.Hand.LabelsOk m c := fun c r =>
    Cert.Pre_finite_inputs.Decode.label_range _ _ _ (hpre c) r
  refine ⟨_, Cert.KernelIdeal.Hand.run m ρ hlab, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans
    (Cert.ReferenceIdeal.RefValue.ref_value _ _ _ (fun r => (hlab c r).1))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
